-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x256 .f32) (main_arg5 : FVec F S128 .f32) (main_arg6 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S50000x128 .f32) (main_arg1 : FVec F S256x128 .f32) (main_arg2 : FVec F S256 .f32) (main_arg3 : FVec F S256x128 .f32) (main_arg4 : FVec F S128x256 .f32) (main_arg5 : FVec F S128 .f32) (main_arg6 : FVec F S128x256 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S50000x128 : Shape := ⟨2, ![50000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 71
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .bf16⟩
  | .hbm, ⟨41, _⟩ => ⟨S50000x128, .bf16⟩
  | .hbm, ⟨42, _⟩ => ⟨S128x256, .f32⟩
  | .hbm, ⟨43, _⟩ => ⟨S128x256, .bf16⟩
  | .hbm, ⟨44, _⟩ => ⟨S128x256, .f32⟩
  | .hbm, ⟨45, _⟩ => ⟨S128x256, .bf16⟩
  | .hbm, ⟨46, _⟩ => ⟨S1x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S50000x256, .bf16⟩
  | .hbm, ⟨64, _⟩ => ⟨S50000x256, .bf16⟩
  | .hbm, ⟨65, _⟩ => ⟨S256x128, .f32⟩
  | .hbm, ⟨66, _⟩ => ⟨S256x128, .bf16⟩
  | .hbm, ⟨67, _⟩ => ⟨S256x128, .f32⟩
  | .hbm, ⟨68, _⟩ => ⟨S256x128, .bf16⟩
  | .hbm, ⟨69, _⟩ => ⟨S1x128, .f32⟩
  | .hbm, ⟨70, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x128, .bf16⟩
  | .local _ .vmem, ⟨14, _⟩ => ⟨S256x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S128x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S128x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S256x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S256x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelHost.lean ====
/-
  What the host operations of the kernel's program leave in the arrays its two grids read, written in the
  vocabulary of the reference's own stages.

  Both programs prepare the same things on the host: the edge list's two rows, the in-degree of every node and its
  reciprocal (at least one), and per layer the sum of the source rows gathered into their destination rows times that
  reciprocal. The kernel's program then narrows every matrix operand to bf16 (a change of format only) and transposes
  the weights before each grid. So each operand array of a grid is a narrowing of a stage the reference also computes:
  that stage, as the same composition of the same operations.
-/
import proofs.«160022_j84464826843467_1_alg».proof.Proof.Gen.KernelIdeal.Frame
import proofs.«160022_j84464826843467_1_alg».proof.Proof.Gen.ReferenceIdeal.Read
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.Read (val_main_v24 val_main_v25 val_main_v30 val_main_v1 val_main_v3 val_main_v12 val_main_v33 val_main_v45 val_main_v46 val_main_v51)

variable {F : FTy → Type} [FloatOps F]
variable (m : (ℓ : Loc nD τ sig) → Buf (Elt F) ℓ) (ρ : Dev nD → PrngReg)

/-! ## Before the first grid -/

set_option maxHeartbeats 4000000 in
/-- The first grid's aggregated features: the degree-normalised neighbour sums of `x`, narrowed. -/
theorem V1_v25 (c : Dev nD) :
    (V1 m ρ c main_v25 : FVec F S50000x128 .bf16)
      = truncf .bf16 (val_main_v24 (F := F) (m ((c : Thread nD τ).loc main_arg0)) (m ((c : Thread nD τ).loc main_arg7))) Facts₀.bitsLt_bf16_f32 := by
  dsimp only [V1, W1, hostOps0]
  after_results_simp
  rfl

set_option maxHeartbeats 4000000 in
/-- The node features, narrowed. -/
theorem V1_v26 (c : Dev nD) :
    (V1 m ρ c main_v26 : FVec F S50000x128 .bf16) = truncf .bf16 (m ((c : Thread nD τ).loc main_arg0)) Facts₀.bitsLt_bf16_f32 := by
  dsimp only [V1, W1, hostOps0]
  after_results_simp

set_option maxHeartbeats 4000000 in
/-- The neighbour weight of layer one, transposed and narrowed. -/
theorem V1_v28 (c : Dev nD) :
    (V1 m ρ c main_v28 : FVec F S128x256 .bf16) = truncf .bf16 (val_main_v25 (F := F) (m ((c : Thread nD τ).loc main_arg1))) Facts₀.bitsLt_bf16_f32 := by
  dsimp only [V1, W1, hostOps0]
  after_results_simp
  rfl

set_option maxHeartbeats 4000000 in
/-- The self weight of layer one, transposed and narrowed. -/
theorem V1_v30 (c : Dev nD) :
    (V1 m ρ c main_v30 : FVec F S128x256 .bf16) = truncf .bf16 (val_main_v30 (F := F) (m ((c : Thread nD τ).loc main_arg3))) Facts₀.bitsLt_bf16_f32 := by
  dsimp only [V1, W1, hostOps0]
  after_results_simp
  rfl

set_option maxHeartbeats 4000000 in
/-- The bias of layer one as a single row. -/
theorem V1_v31 (c : Dev nD) :
    (V1 m ρ c main_v31 : FVec F S1x256 .f32) = shapeCast S1x256 (m ((c : Thread nD τ).loc main_arg2)) Facts₀.shapeCasts_S256_S1x256 := by
  dsimp only [V1, W1, hostOps0]
  after_results_simp
  rfl

/-! ## Between the grids: what the first grid did not write is as the host left it -/

set_option maxHeartbeats 4000000 in
theorem W2_v1 (c : Dev nD) : (W2 m ρ c (Proc.devRef .tc main_v1) : IVec S800000 32) = val_main_v1 (F := F) (m ((c : Thread nD τ).loc main_arg7)) :=
  (W2_of_ne m ρ c main_v1 (by decide)).trans (by
    dsimp only [W1, hostOps0]
    after_results_simp
    rfl)

set_option maxHeartbeats 4000000 in
theorem W2_v3 (c : Dev nD) : (W2 m ρ c (Proc.devRef .tc main_v3) : IVec S800000 32) = val_main_v3 (F := F) (m ((c : Thread nD τ).loc main_arg7)) :=
  (W2_of_ne m ρ c main_v3 (by decide)).trans (by
    dsimp only [W1, hostOps0]
    after_results_simp
    rfl)

set_option maxHeartbeats 4000000 in
theorem W2_v12 (c : Dev nD) : (W2 m ρ c (Proc.devRef .tc main_v12) : FVec F S50000x1 .f32) = val_main_v12 (F := F) (m ((c : Thread nD τ).loc main_arg7)) :=
  (W2_of_ne m ρ c main_v12 (by decide)).trans (by
    dsimp only [W1, hostOps0]
    after_results_simp
    rfl)

set_option maxHeartbeats 4000000 in
theorem W2_arg4 (c : Dev nD) : W2 m ρ c (Proc.devRef .tc main_arg4) = (m ((c : Thread nD τ).loc main_arg4)) :=
  (W2_of_ne m ρ c main_arg4 (by decide)).trans (by
    dsimp only [W1, hostOps0]
    after_results_simp)

set_option maxHeartbeats 4000000 in
theorem W2_arg5 (c : Dev nD) : W2 m ρ c (Proc.devRef .tc main_arg5) = (m ((c : Thread nD τ).loc main_arg5)) :=
  (W2_of_ne m ρ c main_arg5 (by decide)).trans (by
    dsimp only [W1, hostOps0]
    after_results_simp)

set_option maxHeartbeats 4000000 in
theorem W2_arg6 (c : Dev nD) : W2 m ρ c (Proc.devRef .tc main_arg6) = (m ((c : Thread nD τ).loc main_arg6)) :=
  (W2_of_ne m ρ c main_arg6 (by decide)).trans (by
    dsimp only [W1, hostOps0]
    after_results_simp)

/-! ## Before the second grid, given what the first grid left in its output array -/

set_option maxHeartbeats 4000000 in
/-- The second grid's aggregated features: the degree-normalised neighbour sums of the hidden layer, narrowed. -/
theorem V3_v45 (c : Dev nD)
    (hh : (W2 m ρ c (Proc.devRef .tc main_v32) : FVec F S50000x256 .f32) = val_main_v33 (F := F) (m ((c : Thread nD τ).loc main_arg0)) (m ((c : Thread nD τ).loc main_arg1)) (m ((c : Thread nD τ).loc main_arg2)) (m ((c : Thread nD τ).loc main_arg3)) (m ((c : Thread nD τ).loc main_arg7))) :
    (V3 m ρ c main_v45 : FVec F S50000x256 .bf16)
      = truncf .bf16 (val_main_v45 (F := F) (m ((c : Thread nD τ).loc main_arg0)) (m ((c : Thread nD τ).loc main_arg1)) (m ((c : Thread nD τ).loc main_arg2)) (m ((c : Thread nD τ).loc main_arg3)) (m ((c : Thread nD τ).loc main_arg7))) Facts₀.bitsLt_bf16_f32 := by
  dsimp only [V3, W3, hostOps1]
  after_results_simp
  rw [hh, W2_v1, W2_v3, W2_v12]
  rfl

set_option maxHeartbeats 4000000 in
/-- The hidden layer, narrowed. -/
theorem V3_v46 (c : Dev nD)
    (hh : (W2 m ρ c (Proc.devRef .tc main_v32) : FVec F S50000x256 .f32) = val_main_v33 (F := F) (m ((c : Thread nD τ).loc main_arg0)) (m ((c : Thread nD τ).loc main_arg1)) (m ((c : Thread nD τ).loc main_arg2)) (m ((c : Thread nD τ).loc main_arg3)) (m ((c : Thread nD τ).loc main_arg7))) :
    (V3 m ρ c main_v46 : FVec F S50000x256 .bf16)
      = truncf .bf16 (val_main_v33 (F := F) (m ((c : Thread nD τ).loc main_arg0)) (m ((c : Thread nD τ).loc main_arg1)) (m ((c : Thread nD τ).loc main_arg2)) (m ((c : Thread nD τ).loc main_arg3)) (m ((c : Thread nD τ).loc main_arg7))) Facts₀.bitsLt_bf16_f32 := by
  dsimp only [V3, W3, hostOps1]
  after_results_simp
  rw [hh]

set_option maxHeartbeats 4000000 in
/-- The neighbour weight of layer two, transposed and narrowed. -/
theorem V3_v48 (c : Dev nD) :
    (V3 m ρ c main_v48 : FVec F S256x128 .bf16) = truncf .bf16 (val_main_v46 (F := F) (m ((c : Thread nD τ).loc main_arg4))) Facts₀.bitsLt_bf16_f32 := by
  dsimp only [V3, W3, hostOps1]
  after_results_simp
  rw [W2_arg4]
  rfl

set_option maxHeartbeats 4000000 in
/-- The self weight of layer two, transposed and narrowed. -/
theorem V3_v50 (c : Dev nD) :
    (V3 m ρ c main_v50 : FVec F S256x128 .bf16) = truncf .bf16 (val_main_v51 (F := F) (m ((c : Thread nD τ).loc main_arg6))) Facts₀.bitsLt_bf16_f32 := by
  dsimp only [V3, W3, hostOps1]
  after_results_simp
  rw [W2_arg6]
  rfl

set_option maxHeartbeats 4000000 in
/-- The bias of layer two as a single row. -/
theorem V3_v51 (c : Dev nD) :
    (V3 m ρ c main_v51 : FVec F S1x128 .f32) = shapeCast S1x128 (m ((c : Thread nD τ).loc main_arg5)) Facts₀.shapeCasts_S128_S1x128 := by
  dsimp only [V3, W3, hostOps1]
  after_results_simp
  rw [W2_arg5]
  rfl

end Cert.KernelIdeal.Host

end
-- ==== Proof.ReferenceEntry.lean ====
/-
  The reference, read one output entry at a time over the extended reals.

  Its first layer is `max((a · Wlᵀ + bl) + x · Wrᵀ, 0)` with `a` the degree-normalised sum of the neighbours' rows, its
  second the same expression without the maximum, over the first layer's output. The host's matrix products are plain
  sums of products, a transpose swaps the two coordinates of the weight it reads, and the bias vector is repeated down
  the rows: at (p, q) the first layer is `max((∑ₖ a[p,k]·Wl[q,k] + bl[q]) + ∑ₖ x[p,k]·Wr[q,k], 0)`.
-/
import proofs.«160022_j84464826843467_1_alg».proof.Proof.Gen.ReferenceIdeal.Read

noncomputable section

namespace Cert.ReferenceIdeal.Entry

open Cert.ReferenceIdeal Cert.ReferenceIdeal.Read Idealize.ShloMosaic Idealize.ShloMosaic.ValueIdx

/-- The hidden layer (after the maximum with zero) at (p, q). -/
theorem hidden_entry (x0 : (⟨S50000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal))
    (x7 : (⟨S2x800000, .i32⟩ : BufTy).Contents (Elt Ideal)) (p : Fin 50000) (q : Fin 256) :
    val_main_v33 (F := Ideal) x0 x1 x2 x3 x7 (ix2 p q)
      = max (((∑ k : Fin 128, val_main_v24 (F := Ideal) x0 x7 (ix2 p k) * x1 (ix2 q k)) + x2 (ix1 q))
          + ∑ k : Fin 128, x0 (ix2 p k) * x3 (ix2 q k)) (Ideal.ofBits .f32 0x00000000#32) := by
  have e1 : ∀ k : Fin 128, lidx_main_v26 (ix2 p q) k = ix2 p k := fun k => funext fun a => Fin.ext (by
    match a with | ⟨0, _⟩ => rfl | ⟨1, _⟩ => rfl)
  have e2 : ∀ k : Fin 128, idx_main_v25 (ridx_main_v26 (ix2 p q) k) = ix2 q k := fun k => funext fun a => Fin.ext (by
    match a with | ⟨0, _⟩ => rfl | ⟨1, _⟩ => rfl)
  have e3 : idx_main_v27 (idx_main_v28 (ix2 p q)) = ix1 q := funext fun a => Fin.ext (by
    match a with | ⟨0, _⟩ => rfl)
  have e4 : ∀ k : Fin 128, lidx_main_v31 (ix2 p q) k = ix2 p k := fun k => funext fun a => Fin.ext (by
    match a with | ⟨0, _⟩ => rfl | ⟨1, _⟩ => rfl)
  have e5 : ∀ k : Fin 128, idx_main_v30 (ridx_main_v31 (ix2 p q) k) = ix2 q k := fun k => funext fun a => Fin.ext (by
    match a with | ⟨0, _⟩ => rfl | ⟨1, _⟩ => rfl)
  rw [val_main_v33_apply, val_main_v32_apply, val_main_v29_apply, val_main_v26_apply, val_main_v28_apply,
    val_main_v27_apply, val_main_v31_apply, val_main_call0_v0_apply, val_main_call0_cst_apply]
  simp only [val_main_v25_apply, val_main_v30_apply, e1, e2, e3, e4, e5]
  rfl

/-- The output at (p, q), over the hidden layer `h` and its degree-normalised neighbour sum. -/
theorem output_entry (x0 : (⟨S50000x128, .f32⟩ : BufTy).Contents (Elt Ideal)) (x1 : (⟨S256x128, .f32⟩ : BufTy).Contents (Elt Ideal)) (x2 : (⟨S256, .f32⟩ : BufTy).Contents (Elt Ideal)) (x3 : (⟨S256x128, .f32⟩ : BufTy).Contents (Elt Ideal))
    (x4 : (⟨S128x256, .f32⟩ : BufTy).Contents (Elt Ideal)) (x5 : (⟨S128, .f32⟩ : BufTy).Contents (Elt Ideal)) (x6 : (⟨S128x256, .f32⟩ : BufTy).Contents (Elt Ideal))
    (x7 : (⟨S2x800000, .i32⟩ : BufTy).Contents (Elt Ideal)) (p : Fin 50000) (q : Fin 128) :
    val_main_v53 (F := Ideal) x0 x1 x2 x3 x4 x5 x6 x7 (ix2 p q)
      = ((∑ k : Fin 256, val_main_v45 (F := Ideal) x0 x1 x2 x3 x7 (ix2 p k) * x4 (ix2 q k)) + x5 (ix1 q))
          + ∑ k : Fin 256, val_main_v33 (F := Ideal) x0 x1 x2 x3 x7 (ix2 p k) * x6 (ix2 q k) := by
  have e1 : ∀ k : Fin 256, lidx_main_v47 (ix2 p q) k = ix2 p k := fun k => funext fun a => Fin.ext (by
    match a with | ⟨0, _⟩ => rfl | ⟨1, _⟩ => rfl)
  have e2 : ∀ k : Fin 256, idx_main_v46 (ridx_main_v47 (ix2 p q) k) = ix2 q k := fun k => funext fun a => Fin.ext (by
    match a with | ⟨0, _⟩ => rfl | ⟨1, _⟩ => rfl)
  have e3 : idx_main_v48 (idx_main_v49 (ix2 p q)) = ix1 q := funext fun a => Fin.ext (by
    match a with | ⟨0, _⟩ => rfl)
  have e4 : ∀ k : Fin 256, lidx_main_v52 (ix2 p q) k = ix2 p k := fun k => funext fun a => Fin.ext (by
    match a with | ⟨0, _⟩ => rfl | ⟨1, _⟩ => rfl)
  have e5 : ∀ k : Fin 256, idx_main_v51 (ridx_main_v52 (ix2 p q) k) = ix2 q k := fun k => funext fun a => Fin.ext (by
    match a with | ⟨0, _⟩ => rfl | ⟨1, _⟩ => rfl)
  rw [val_main_v53_apply, val_main_v50_apply, val_main_v47_apply, val_main_v49_apply, val_main_v48_apply,
    val_main_v52_apply]
  simp only [val_main_v46_apply, val_main_v51_apply, e1, e2, e3, e4, e5]
  rfl

end Cert.ReferenceIdeal.Entry

end
-- ==== Proof.KernelEntry.lean ====
/-
  The two kernel bodies, read one output entry at a time over the extended reals.

  Each body takes a tile of 2000 rows of the aggregated neighbour features `a` and of the node features `x`, the two
  weight matrices already transposed (`wl`, `wr`: contraction axis first) and the bias as a single row `b`, and stores
  `(a · wl + x · wr) + b` — followed, in the first layer only, by the maximum with zero. At an entry (p, q) that is
  `(∑ₖ a[p,k]·wl[k,q] + ∑ₖ x[p,k]·wr[k,q]) + b[0,q]`: the matrix unit's product into a zero accumulator is the plain sum
  of products, the shape casts are identities and the bias row is repeated down the rows.
-/
import proofs.«160022_j84464826843467_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.ValueIdx

/-! ## First layer: a [2000, 128] tile times a [128, 256] matrix -/

/-- The left operand is read at the output's row … -/
theorem lhsA_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

/-- … and the contracted coordinate, -/
theorem lhsA_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q

/-- the right operand at the contracted coordinate … -/
theorem rhsA_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q

/-- … and the output's column. -/
theorem rhsA_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- One entry of the product into a zero accumulator: the sum over the 128 contracted coordinates of the row's entries
    times the column's. -/
theorem matmulA_apply (l : FVec Ideal S2000x128 .bf16) (r : FVec Ideal S128x256 .bf16) (p : Fin 2000) (q : Fin 256) :
    matmul dot_S2000x128_S128x256_S2000x256_1_0_0_1_n_n none l r (constant S2000x256 .f32 0x00000000#32) (ix2 p q)
      = ∑ k : Fin 128, l (ix2 p k) * r (ix2 k q) := by
  simp only [matmul]
  rw [Ideal.matmul_constant_zero_apply,
    ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q)
      ((ValueIdx.contrEquiv1 dot_S2000x128_S128x256_S2000x256_1_0_0_1_n_n 128 rfl rfl).symm k) = ix2 p k :=
    funext fun a => Fin.ext (by
      match a with
      | ⟨0, _⟩ => exact lhsA_0 _ _
      | ⟨1, _⟩ => exact (lhsA_1 _ _).trans hk)
  have er : dot_S2000x128_S128x256_S2000x256_1_0_0_1_n_n.rhsIdx (ix2 p q)
      ((ValueIdx.contrEquiv1 dot_S2000x128_S128x256_S2000x256_1_0_0_1_n_n 128 rfl rfl).symm k) = ix2 k q :=
    funext fun a => Fin.ext (by
      match a with
      | ⟨0, _⟩ => exact (rhsA_0 _ _).trans hk
      | ⟨1, _⟩ => exact rhsA_1 _ _)
  rw [el, er]

/-- The bias row repeated down the 2000 rows of a tile. -/
theorem biasA_apply (b : FVec Ideal S1x256 .f32) (p : Fin 2000) (q : Fin 256) :
    broadcastTo S2000x256 b Facts₀.broadcasts_S1x256_S2000x256 (ix2 p q) = b (ix2 0 q) :=
  broadcastTo_apply b _ (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- First layer: the stored tile at (p, q). -/
theorem layer1_entry (a x : FVec Ideal S2000x128 .bf16) (wl wr : FVec Ideal S128x256 .bf16) (b : FVec Ideal S1x256 .f32)
    (p : Fin 2000) (q : Fin 256) :
    k0_pay1 (F := Ideal) a wl x wr b (ix2 p q)
      = max (((∑ k : Fin 128, a (ix2 p k) * wl (ix2 k q)) + ∑ k : Fin 128, x (ix2 p k) * wr (ix2 k q)) + b (ix2 0 q))
          (Ideal.ofBits .f32 0x00000000#32) := by
  unfold k0_pay1
  simp only [shapeCast_self]
  rw [maximumf_apply, addf_apply, addf_apply, matmulA_apply, matmulA_apply, biasA_apply]
  rfl

/-! ## Second layer: a [2000, 256] tile times a [256, 128] matrix -/

theorem lhsB_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide),
    dif_pos (show (0 : Fin S2000x256.rank) ∈ dot_S2000x256_S256x128_S2000x128_1_0_0_1_n_n.lhsNonContracting by decide)]
  rfl

theorem lhsB_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q

theorem rhsB_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q

theorem rhsB_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide),
    dif_pos (show (1 : Fin S256x128.rank) ∈ dot_S2000x256_S256x128_S2000x128_1_0_0_1_n_n.rhsNonContracting by decide)]
  rfl

/-- One entry of the product into a zero accumulator: the sum over the 256 contracted coordinates. -/
theorem matmulB_apply (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ k : Fin 256, l (ix2 p k) * r (ix2 k q) := by
  simp only [matmul]
  rw [Ideal.matmul_constant_zero_apply,
    ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q)
      ((ValueIdx.contrEquiv1 dot_S2000x256_S256x128_S2000x128_1_0_0_1_n_n 256 rfl rfl).symm k) = ix2 p k :=
    funext fun a => Fin.ext (by
      match a with
      | ⟨0, _⟩ => exact lhsB_0 _ _
      | ⟨1, _⟩ => exact (lhsB_1 _ _).trans hk)
  have er : dot_S2000x256_S256x128_S2000x128_1_0_0_1_n_n.rhsIdx (ix2 p q)
      ((ValueIdx.contrEquiv1 dot_S2000x256_S256x128_S2000x128_1_0_0_1_n_n 256 rfl rfl).symm k) = ix2 k q :=
    funext fun a => Fin.ext (by
      match a with
      | ⟨0, _⟩ => exact (rhsB_0 _ _).trans hk
      | ⟨1, _⟩ => exact rhsB_1 _ _)
  rw [el, er]

/-- The bias row repeated down the 2000 rows of a tile. -/
theorem biasB_apply (b : FVec Ideal S1x128 .f32) (p : Fin 2000) (q : Fin 128) :
    broadcastTo S2000x128 b Facts₀.broadcasts_S1x128_S2000x128 (ix2 p q) = b (ix2 0 q) :=
  broadcastTo_apply b _ (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- Second layer: the stored tile at (p, q). -/
theorem layer2_entry (a x : FVec Ideal S2000x256 .bf16) (wl wr : FVec Ideal S256x128 .bf16) (b : FVec Ideal S1x128 .f32)
    (p : Fin 2000) (q : Fin 128) :
    k1_pay1 (F := Ideal) a wl x wr b (ix2 p q)
      = ((∑ k : Fin 256, a (ix2 p k) * wl (ix2 k q)) + ∑ k : Fin 256, x (ix2 p k) * wr (ix2 k q)) + b (ix2 0 q) := by
  unfold k1_pay1
  simp only [shapeCast_self]
  rw [addf_apply, addf_apply, matmulB_apply, matmulB_apply, biasB_apply]

end Cert.KernelIdeal.Entry

end
-- ==== Proof.Layer1Point.lean ====
/-
  One grid point of the first layer, for ANY contents of the arrays its windows read.

  The grid walks the 50000 node rows in 25 tiles of 2000. At point `t` the body reads rows `2000·t … 2000·t + 1999` of the
  aggregated features and of the node features, the two whole transposed weights and the bias row, and writes the same
  rows of the output. If the five arrays are (narrowings of) `A`, `X`, `Wlᵀ`, `Wrᵀ` and the row form of `b`, and `H` is any
  array with `H[r,q] = max((∑ₖ A[r,k]·Wl[q,k] + b[q]) + ∑ₖ X[r,k]·Wr[q,k], 0)`, then what point `t` writes back is rows
  `2000·t …` of `H`: entry by entry the body's `(a·wl + x·wr) + b` is that expression with the three addends grouped
  the other way, and addition of extended reals is commutative and associative. The 25 tiles cover every row.
-/
import proofs.«160022_j84464826843467_1_alg».proof.Proof.Gen.KernelIdeal.Frame
import proofs.«160022_j84464826843467_1_alg».proof.Proof.KernelEntry
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The printed index maps over the grid: the two feature windows and the output window move one block of rows per
    point, the weights and the bias stay at block zero. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A tile's row `p` at point `t` is row `2000·t + p` of the array. -/
theorem row_lt (t : Fin cfg0.N) (p : Fin 2000) : t.val * 2000 + p.val < 50000 := by
  have ht : t.val < 25 := lt_of_lt_of_eq t.isLt N_0
  have := p.isLt
  omega

section Point

variable (V : (c : Dev nD) → (b : Ref sig .tc) → Buf (Elt Ideal) ((c : Thread nD τ).loc b))
variable (c : Dev nD) (t : Fin cfg0.N)
variable (A X : FVec Ideal S50000x128 .f32) (Wl Wr : FVec Ideal S256x128 .f32) (b : FVec Ideal S256 .f32)
variable (WlT WrT : FVec Ideal S128x256 .f32)

/-- The aggregated-feature tile: rows `2000·t …` of `A`. -/
theorem tileA (hA : (V c main_v25 : FVec Ideal S50000x128 .bf16) = truncf .bf16 A Facts₀.bitsLt_bf16_f32)
    (p : Fin 2000) (k : Fin 128) :
    (iblk0 V c 0 t : FVec Ideal S2000x128 .bf16) (ix2 p k) = A (ix2 ⟨t.val * 2000 + p.val, row_lt t p⟩ k) := by
  show (V c main_v25 : FVec Ideal S50000x128 .bf16) (((cfg0.win 0).blk t).view.emb (ix2 p k)) = _
  rw [hA]
  refine (truncf_apply (ψ := .bf16) A Facts₀.bitsLt_bf16_f32 _).trans (congrArg A (funext fun a => Fin.ext ?_))
  obtain ⟨e0, e1, -⟩ := idx t
  match a with
  | ⟨0, _⟩ => show win0_0.index t (0 : Fin 2) * 2000 + 1 * p.val = t.val * 2000 + p.val; omega
  | ⟨1, _⟩ => show win0_0.index t (1 : Fin 2) * 128 + 1 * k.val = k.val; omega

/-- The node-feature tile: rows `2000·t …` of `X`. -/
theorem tileX (hX : (V c main_v26 : FVec Ideal S50000x128 .bf16) = truncf .bf16 X Facts₀.bitsLt_bf16_f32)
    (p : Fin 2000) (k : Fin 128) :
    (iblk0 V c 1 t : FVec Ideal S2000x128 .bf16) (ix2 p k) = X (ix2 ⟨t.val * 2000 + p.val, row_lt t p⟩ k) := by
  show (V c main_v26 : FVec Ideal S50000x128 .bf16) (((cfg0.win 1).blk t).view.emb (ix2 p k)) = _
  rw [hX]
  refine (truncf_apply (ψ := .bf16) X Facts₀.bitsLt_bf16_f32 _).trans (congrArg X (funext fun a => Fin.ext ?_))
  obtain ⟨-, -, e0, e1, -⟩ := idx t
  match a with
  | ⟨0, _⟩ => show win0_1.index t (0 : Fin 2) * 2000 + 1 * p.val = t.val * 2000 + p.val; omega
  | ⟨1, _⟩ => show win0_1.index t (1 : Fin 2) * 128 + 1 * k.val = k.val; omega

/-- The neighbour weight as the body reads it: the whole transposed matrix, at every point. -/
theorem tileWl (hWl : (V c main_v28 : FVec Ideal S128x256 .bf16) = truncf .bf16 WlT Facts₀.bitsLt_bf16_f32)
    (hT : ∀ (k : Fin 128) (q : Fin 256), WlT (ix2 k q) = Wl (ix2 q k)) (k : Fin 128) (q : Fin 256) :
    (iblk0 V c 2 t : FVec Ideal S128x256 .bf16) (ix2 k q) = Wl (ix2 q k) := by
  show (V c main_v28 : FVec Ideal S128x256 .bf16) (((cfg0.win 2).blk t).view.emb (ix2 k q)) = _
  rw [hWl]
  refine (truncf_apply (ψ := .bf16) WlT Facts₀.bitsLt_bf16_f32 _).trans ((congrArg WlT (funext fun a => Fin.ext ?_)).trans (hT k q))
  obtain ⟨-, -, -, -, e0, e1, -⟩ := idx t
  match a with
  | ⟨0, _⟩ => show win0_2.index t (0 : Fin 2) * 128 + 1 * k.val = k.val; omega
  | ⟨1, _⟩ => show win0_2.index t (1 : Fin 2) * 256 + 1 * q.val = q.val; omega

/-- The self weight likewise. -/
theorem tileWr (hWr : (V c main_v30 : FVec Ideal S128x256 .bf16) = truncf .bf16 WrT Facts₀.bitsLt_bf16_f32)
    (hT : ∀ (k : Fin 128) (q : Fin 256), WrT (ix2 k q) = Wr (ix2 q k)) (k : Fin 128) (q : Fin 256) :
    (iblk0 V c 3 t : FVec Ideal S128x256 .bf16) (ix2 k q) = Wr (ix2 q k) := by
  show (V c main_v30 : FVec Ideal S128x256 .bf16) (((cfg0.win 3).blk t).view.emb (ix2 k q)) = _
  rw [hWr]
  refine (truncf_apply (ψ := .bf16) WrT Facts₀.bitsLt_bf16_f32 _).trans ((congrArg WrT (funext fun a => Fin.ext ?_)).trans (hT k q))
  obtain ⟨-, -, -, -, -, -, e0, e1, -⟩ := idx t
  match a with
  | ⟨0, _⟩ => show win0_3.index t (0 : Fin 2) * 128 + 1 * k.val = k.val; omega
  | ⟨1, _⟩ => show win0_3.index t (1 : Fin 2) * 256 + 1 * q.val = q.val; omega

/-- The bias row is the bias vector. -/
theorem tileB (hB : (V c main_v31 : FVec Ideal S1x256 .f32) = shapeCast S1x256 b Facts₀.shapeCasts_S256_S1x256)
    (q : Fin 256) :
    (iblk0 V c 4 t : FVec Ideal S1x256 .f32) (ix2 (0 : Fin 1) q) = b (ix1 q) := by
  show (V c main_v31 : FVec Ideal S1x256 .f32) (((cfg0.win 4).blk t).view.emb (ix2 (0 : Fin 1) q)) = _
  rw [hB]
  have hemb : ((cfg0.win 4).blk t).view.emb (ix2 (0 : Fin 1) q) = ix2 (0 : Fin 1) q := funext fun a => Fin.ext (by
    obtain ⟨-, -, -, -, -, -, -, -, e0, e1, -⟩ := idx t
    match a with
    | ⟨0, _⟩ => show win0_4.index t (0 : Fin 2) * 1 + 1 * 0 = 0; omega
    | ⟨1, _⟩ => show win0_4.index t (1 : Fin 2) * 256 + 1 * q.val = q.val; omega)
  rw [hemb]
  refine (shapeCast_addUnit_apply ![256] b Facts₀.shapeCasts_S256_S1x256 (ix2 (0 : Fin 1) q)).trans (congrArg b (funext fun a => ?_))
  match a with
  | ⟨0, _⟩ => rfl

/-- WHAT POINT `t` WRITES BACK: rows `2000·t … 2000·t + 1999` of `H`. -/
theorem writes_back
    (hA : (V c main_v25 : FVec Ideal S50000x128 .bf16) = truncf .bf16 A Facts₀.bitsLt_bf16_f32)
    (hX : (V c main_v26 : FVec Ideal S50000x128 .bf16) = truncf .bf16 X Facts₀.bitsLt_bf16_f32)
    (hWl : (V c main_v28 : FVec Ideal S128x256 .bf16) = truncf .bf16 WlT Facts₀.bitsLt_bf16_f32)
    (hWr : (V c main_v30 : FVec Ideal S128x256 .bf16) = truncf .bf16 WrT Facts₀.bitsLt_bf16_f32)
    (hB : (V c main_v31 : FVec Ideal S1x256 .f32) = shapeCast S1x256 b Facts₀.shapeCasts_S256_S1x256)
    (hlT : ∀ (k : Fin 128) (q : Fin 256), WlT (ix2 k q) = Wl (ix2 q k))
    (hrT : ∀ (k : Fin 128) (q : Fin 256), WrT (ix2 k q) = Wr (ix2 q k))
    (H : FVec Ideal S50000x256 .f32)
    (hH : ∀ (r : Fin 50000) (q : Fin 256), H (ix2 r q)
      = max (((∑ k : Fin 128, A (ix2 r k) * Wl (ix2 q k)) + b (ix1 q)) + ∑ k : Fin 128, X (ix2 r k) * Wr (ix2 q k))
          (Ideal.ofBits .f32 0x00000000#32)) :
    (cfg0.win 5).cut (grid0.coords t) (out0_5 (iblk0 V c 0 t) (iblk0 V c 1 t) (iblk0 V c 2 t) (iblk0 V c 3 t) (iblk0 V c 4 t))
      = ((cfg0.win 5).blk t).view.read (Elt Ideal) H := by
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  show k0_pay1 (F := Ideal) (iblk0 V c 0 t) (iblk0 V c 2 t) (iblk0 V c 1 t) (iblk0 V c 3 t) (iblk0 V c 4 t) (ix2 p q)
      = H (((cfg0.win 5).blk t).view.emb (ix2 p q))
  have hemb : ((cfg0.win 5).blk t).view.emb (ix2 p q) = ix2 ⟨t.val * 2000 + p.val, row_lt t p⟩ q := funext fun a => Fin.ext (by
    obtain ⟨-, -, -, -, -, -, -, -, -, -, e0, e1⟩ := idx t
    match a with
    | ⟨0, _⟩ => show win0_5.index t (0 : Fin 2) * 2000 + 1 * p.val = t.val * 2000 + p.val; omega
    | ⟨1, _⟩ => show win0_5.index t (1 : Fin 2) * 256 + 1 * q.val = q.val; omega)
  rw [hemb, hH]
  refine (Entry.layer1_entry (iblk0 V c 0 t) (iblk0 V c 1 t) (iblk0 V c 2 t) (iblk0 V c 3 t) (iblk0 V c 4 t) p q).trans ?_
  simp only [tileA V c t A hA, tileX V c t X hX, tileWl V c t Wl WlT hWl hlT, tileWr V c t Wr WrT hWr hrT, tileB V c t b hB]
  rw [add_right_comm]

end Point

/-! ## The 25 tiles cover the output array -/

/-- An index of the output array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v32).slice (win0_5.rect t)).set ↔ _
  rw [View.set_slice_whole, Rect.mem_set_unit]
  exact Iff.rfl

/-- Row `r` of the output is written by point `r / 2000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hlt : (i 0).val / 2000 < cfg0.N := lt_of_lt_of_eq (by omega : (i 0).val / 2000 < 25) N_0.symm
  refine ⟨⟨(i 0).val / 2000, hlt⟩, flush0_5 _, ?_⟩
  rw [mem_blk]
  obtain ⟨-, -, -, -, -, -, -, -, -, -, e0, e1⟩ := idx ⟨(i 0).val / 2000, hlt⟩
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hlt⟩ (1 : Fin 2) * 256 ≤ (i 1).val ∧ (i 1).val < win0_5.index ⟨(i 0).val / 2000, hlt⟩ (1 : Fin 2) * 256 + 256
    rw [e1]
    omega

end Cert.KernelIdeal.Layer1

end
-- ==== Proof.Layer2Point.lean ====
/-
  One grid point of the second layer, for ANY contents of the arrays its windows read.

  The same walk as the first layer's — 25 tiles of 2000 node rows — over 256 hidden features in and 128 features out,
  and without the closing maximum: if the five arrays are (narrowings of) `A`, `X`, `Wlᵀ`, `Wrᵀ` and the row form of `b`,
  and `H` is any array with `H[r,q] = (∑ₖ A[r,k]·Wl[q,k] + b[q]) + ∑ₖ X[r,k]·Wr[q,k]`, then what point `t` writes back
  is rows `2000·t … 2000·t + 1999` of `H`, the body adding the same three addends as `(a·wl + x·wr) + b`. The 25 tiles
  cover every row.
-/
import proofs.«160022_j84464826843467_1_alg».proof.Proof.Gen.KernelIdeal.Frame
import proofs.«160022_j84464826843467_1_alg».proof.Proof.KernelEntry
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The printed index maps over the grid: the two feature windows and the output window move one block of rows per
    point, the weights and the bias stay at block zero. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A tile's row `p` at point `t` is row `2000·t + p` of the array. -/
theorem row_lt (t : Fin cfg1.N) (p : Fin 2000) : t.val * 2000 + p.val < 50000 := by
  have ht : t.val < 25 := lt_of_lt_of_eq t.isLt N_1
  have := p.isLt
  omega

section Point

variable (V : (c : Dev nD) → (b : Ref sig .tc) → Buf (Elt Ideal) ((c : Thread nD τ).loc b))
variable (c : Dev nD) (t : Fin cfg1.N)
variable (A X : FVec Ideal S50000x256 .f32) (Wl Wr : FVec Ideal S128x256 .f32) (b : FVec Ideal S128 .f32)
variable (WlT WrT : FVec Ideal S256x128 .f32)

/-- The aggregated-feature tile: rows `2000·t …` of `A`. -/
theorem tileA (hA : (V c main_v45 : FVec Ideal S50000x256 .bf16) = truncf .bf16 A Facts₀.bitsLt_bf16_f32)
    (p : Fin 2000) (k : Fin 256) :
    (iblk1 V c 0 t : FVec Ideal S2000x256 .bf16) (ix2 p k) = A (ix2 ⟨t.val * 2000 + p.val, row_lt t p⟩ k) := by
  show (V c main_v45 : FVec Ideal S50000x256 .bf16) (((cfg1.win 0).blk t).view.emb (ix2 p k)) = _
  rw [hA]
  refine (truncf_apply (ψ := .bf16) A Facts₀.bitsLt_bf16_f32 _).trans (congrArg A (funext fun a => Fin.ext ?_))
  obtain ⟨e0, e1, -⟩ := idx t
  match a with
  | ⟨0, _⟩ => show win1_0.index t (0 : Fin 2) * 2000 + 1 * p.val = t.val * 2000 + p.val; omega
  | ⟨1, _⟩ => show win1_0.index t (1 : Fin 2) * 256 + 1 * k.val = k.val; omega

/-- The hidden-feature tile: rows `2000·t …` of `X`. -/
theorem tileX (hX : (V c main_v46 : FVec Ideal S50000x256 .bf16) = truncf .bf16 X Facts₀.bitsLt_bf16_f32)
    (p : Fin 2000) (k : Fin 256) :
    (iblk1 V c 1 t : FVec Ideal S2000x256 .bf16) (ix2 p k) = X (ix2 ⟨t.val * 2000 + p.val, row_lt t p⟩ k) := by
  show (V c main_v46 : FVec Ideal S50000x256 .bf16) (((cfg1.win 1).blk t).view.emb (ix2 p k)) = _
  rw [hX]
  refine (truncf_apply (ψ := .bf16) X Facts₀.bitsLt_bf16_f32 _).trans (congrArg X (funext fun a => Fin.ext ?_))
  obtain ⟨-, -, e0, e1, -⟩ := idx t
  match a with
  | ⟨0, _⟩ => show win1_1.index t (0 : Fin 2) * 2000 + 1 * p.val = t.val * 2000 + p.val; omega
  | ⟨1, _⟩ => show win1_1.index t (1 : Fin 2) * 256 + 1 * k.val = k.val; omega

/-- The neighbour weight as the body reads it: the whole transposed matrix, at every point. -/
theorem tileWl (hWl : (V c main_v48 : FVec Ideal S256x128 .bf16) = truncf .bf16 WlT Facts₀.bitsLt_bf16_f32)
    (hT : ∀ (k : Fin 256) (q : Fin 128), WlT (ix2 k q) = Wl (ix2 q k)) (k : Fin 256) (q : Fin 128) :
    (iblk1 V c 2 t : FVec Ideal S256x128 .bf16) (ix2 k q) = Wl (ix2 q k) := by
  show (V c main_v48 : FVec Ideal S256x128 .bf16) (((cfg1.win 2).blk t).view.emb (ix2 k q)) = _
  rw [hWl]
  refine (truncf_apply (ψ := .bf16) WlT Facts₀.bitsLt_bf16_f32 _).trans ((congrArg WlT (funext fun a => Fin.ext ?_)).trans (hT k q))
  obtain ⟨-, -, -, -, e0, e1, -⟩ := idx t
  match a with
  | ⟨0, _⟩ => show win1_2.index t (0 : Fin 2) * 256 + 1 * k.val = k.val; omega
  | ⟨1, _⟩ => show win1_2.index t (1 : Fin 2) * 128 + 1 * q.val = q.val; omega

/-- The self weight likewise. -/
theorem tileWr (hWr : (V c main_v50 : FVec Ideal S256x128 .bf16) = truncf .bf16 WrT Facts₀.bitsLt_bf16_f32)
    (hT : ∀ (k : Fin 256) (q : Fin 128), WrT (ix2 k q) = Wr (ix2 q k)) (k : Fin 256) (q : Fin 128) :
    (iblk1 V c 3 t : FVec Ideal S256x128 .bf16) (ix2 k q) = Wr (ix2 q k) := by
  show (V c main_v50 : FVec Ideal S256x128 .bf16) (((cfg1.win 3).blk t).view.emb (ix2 k q)) = _
  rw [hWr]
  refine (truncf_apply (ψ := .bf16) WrT Facts₀.bitsLt_bf16_f32 _).trans ((congrArg WrT (funext fun a => Fin.ext ?_)).trans (hT k q))
  obtain ⟨-, -, -, -, -, -, e0, e1, -⟩ := idx t
  match a with
  | ⟨0, _⟩ => show win1_3.index t (0 : Fin 2) * 256 + 1 * k.val = k.val; omega
  | ⟨1, _⟩ => show win1_3.index t (1 : Fin 2) * 128 + 1 * q.val = q.val; omega

/-- The bias row is the bias vector. -/
theorem tileB (hB : (V c main_v51 : FVec Ideal S1x128 .f32) = shapeCast S1x128 b Facts₀.shapeCasts_S128_S1x128)
    (q : Fin 128) :
    (iblk1 V c 4 t : FVec Ideal S1x128 .f32) (ix2 (0 : Fin 1) q) = b (ix1 q) := by
  show (V c main_v51 : FVec Ideal S1x128 .f32) (((cfg1.win 4).blk t).view.emb (ix2 (0 : Fin 1) q)) = _
  rw [hB]
  have hemb : ((cfg1.win 4).blk t).view.emb (ix2 (0 : Fin 1) q) = ix2 (0 : Fin 1) q := funext fun a => Fin.ext (by
    obtain ⟨-, -, -, -, -, -, -, -, e0, e1, -⟩ := idx t
    match a with
    | ⟨0, _⟩ => show win1_4.index t (0 : Fin 2) * 1 + 1 * 0 = 0; omega
    | ⟨1, _⟩ => show win1_4.index t (1 : Fin 2) * 128 + 1 * q.val = q.val; omega)
  rw [hemb]
  refine (shapeCast_addUnit_apply ![128] b Facts₀.shapeCasts_S128_S1x128 (ix2 (0 : Fin 1) q)).trans (congrArg b (funext fun a => ?_))
  match a with
  | ⟨0, _⟩ => rfl

/-- WHAT POINT `t` WRITES BACK: rows `2000·t … 2000·t + 1999` of `H`. -/
theorem writes_back
    (hA : (V c main_v45 : FVec Ideal S50000x256 .bf16) = truncf .bf16 A Facts₀.bitsLt_bf16_f32)
    (hX : (V c main_v46 : FVec Ideal S50000x256 .bf16) = truncf .bf16 X Facts₀.bitsLt_bf16_f32)
    (hWl : (V c main_v48 : FVec Ideal S256x128 .bf16) = truncf .bf16 WlT Facts₀.bitsLt_bf16_f32)
    (hWr : (V c main_v50 : FVec Ideal S256x128 .bf16) = truncf .bf16 WrT Facts₀.bitsLt_bf16_f32)
    (hB : (V c main_v51 : FVec Ideal S1x128 .f32) = shapeCast S1x128 b Facts₀.shapeCasts_S128_S1x128)
    (hlT : ∀ (k : Fin 256) (q : Fin 128), WlT (ix2 k q) = Wl (ix2 q k))
    (hrT : ∀ (k : Fin 256) (q : Fin 128), WrT (ix2 k q) = Wr (ix2 q k))
    (H : FVec Ideal S50000x128 .f32)
    (hH : ∀ (r : Fin 50000) (q : Fin 128), H (ix2 r q)
      = ((∑ k : Fin 256, A (ix2 r k) * Wl (ix2 q k)) + b (ix1 q)) + ∑ k : Fin 256, X (ix2 r k) * Wr (ix2 q k)) :
    (cfg1.win 5).cut (grid1.coords t) (out1_5 (iblk1 V c 0 t) (iblk1 V c 1 t) (iblk1 V c 2 t) (iblk1 V c 3 t) (iblk1 V c 4 t))
      = ((cfg1.win 5).blk t).view.read (Elt Ideal) H := by
  unfold out1_5
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 2 t) (iblk1 V c 1 t) (iblk1 V c 3 t) (iblk1 V c 4 t) (ix2 p q)
      = H (((cfg1.win 5).blk t).view.emb (ix2 p q))
  have hemb : ((cfg1.win 5).blk t).view.emb (ix2 p q) = ix2 ⟨t.val * 2000 + p.val, row_lt t p⟩ q := funext fun a => Fin.ext (by
    obtain ⟨-, -, -, -, -, -, -, -, -, -, e0, e1⟩ := idx t
    match a with
    | ⟨0, _⟩ => show win1_5.index t (0 : Fin 2) * 2000 + 1 * p.val = t.val * 2000 + p.val; omega
    | ⟨1, _⟩ => show win1_5.index t (1 : Fin 2) * 128 + 1 * q.val = q.val; omega)
  rw [hemb, hH]
  refine (Entry.layer2_entry (iblk1 V c 0 t) (iblk1 V c 1 t) (iblk1 V c 2 t) (iblk1 V c 3 t) (iblk1 V c 4 t) p q).trans ?_
  simp only [tileA V c t A hA, tileX V c t X hX, tileWl V c t Wl WlT hWl hlT, tileWr V c t Wr WrT hWr hrT, tileB V c t b hB]
  rw [add_right_comm]

end Point

/-! ## The 25 tiles cover the output array -/

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v52).slice (win1_5.rect t)).set ↔ _
  rw [View.set_slice_whole, Rect.mem_set_unit]
  exact Iff.rfl

/-- Row `r` of the output is written by point `r / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 2000 < cfg1.N := lt_of_lt_of_eq (by omega : (i 0).val / 2000 < 25) N_1.symm
  refine ⟨⟨(i 0).val / 2000, hlt⟩, flush1_5 _, ?_⟩
  rw [mem_blk]
  obtain ⟨-, -, -, -, -, -, -, -, -, -, e0, e1⟩ := idx ⟨(i 0).val / 2000, hlt⟩
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, hlt⟩ (1 : Fin 2) * 128 ≤ (i 1).val ∧ (i 1).val < win1_5.index ⟨(i 0).val / 2000, hlt⟩ (1 : Fin 2) * 128 + 128
    rw [e1]
    omega

end Cert.KernelIdeal.Layer2

end
-- ==== Proof.KernelValue.lean ====
/-
  What the kernel's program leaves in its two output arrays, over the extended reals.

  Before the first grid the host operations have put into its five operand arrays the degree-normalised neighbour sums
  of `x`, `x` itself, the two transposed weights of layer one and its bias as a row — the first four narrowed to bf16,
  which changes no value here. By the first layer's point lemma every point then writes back its 2000 rows of the
  reference's hidden layer, and the 25 tiles cover the array: after the first grid its output array IS the hidden
  layer. The host operations between the grids read that array, so the second grid's operands are the neighbour sums of
  the hidden layer, the hidden layer, and layer two's weights and bias; by the second layer's point lemma and cover,
  after the second grid its output array is the reference's result.
-/
import proofs.«160022_j84464826843467_1_alg».proof.Proof.KernelHost
import proofs.«160022_j84464826843467_1_alg».proof.Proof.ReferenceEntry
import proofs.«160022_j84464826843467_1_alg».proof.Proof.Layer1Point
import proofs.«160022_j84464826843467_1_alg».proof.Proof.Layer2Point

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)
open Cert.ReferenceIdeal.Read (val_main_v24 val_main_v25 val_main_v30 val_main_v33 val_main_v45 val_main_v46 val_main_v51 val_main_v53
  val_main_v25_apply val_main_v30_apply val_main_v46_apply val_main_v51_apply)

/-! ## A transposed weight read at an entry -/

theorem wl1T (w : FVec Ideal S256x128 .f32) (k : Fin 128) (q : Fin 256) :
    val_main_v25 (F := Ideal) w (ix2 k q) = w (ix2 q k) := by
  rw [val_main_v25_apply]
  refine congrArg w (funext fun a => Fin.ext ?_)
  match a with
  | ⟨0, _⟩ => rfl
  | ⟨1, _⟩ => rfl

theorem wr1T (w : FVec Ideal S256x128 .f32) (k : Fin 128) (q : Fin 256) :
    val_main_v30 (F := Ideal) w (ix2 k q) = w (ix2 q k) := by
  rw [val_main_v30_apply]
  refine congrArg w (funext fun a => Fin.ext ?_)
  match a with
  | ⟨0, _⟩ => rfl
  | ⟨1, _⟩ => rfl

theorem wl2T (w : FVec Ideal S128x256 .f32) (k : Fin 256) (q : Fin 128) :
    val_main_v46 (F := Ideal) w (ix2 k q) = w (ix2 q k) := by
  rw [val_main_v46_apply]
  refine congrArg w (funext fun a => Fin.ext ?_)
  match a with
  | ⟨0, _⟩ => rfl
  | ⟨1, _⟩ => rfl

theorem wr2T (w : FVec Ideal S128x256 .f32) (k : Fin 256) (q : Fin 128) :
    val_main_v51 (F := Ideal) w (ix2 k q) = w (ix2 q k) := by
  rw [val_main_v51_apply]
  refine congrArg w (funext fun a => Fin.ext ?_)
  match a with
  | ⟨0, _⟩ => rfl
  | ⟨1, _⟩ => rfl

variable (m : (ℓ : Loc nD τ sig) → Buf (Elt Ideal) ℓ) (ρ : Dev nD → PrngReg)

/-- The reference's hidden layer, of the kernel program's own arguments. -/
abbrev hidden (c : Dev nD) : FVec Ideal S50000x256 .f32 :=
  val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg7))

/-- The reference's result, of the kernel program's own arguments. -/
abbrev output (c : Dev nD) : FVec Ideal S50000x128 .f32 :=
  val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## The first grid -/

/-- What point `t` of the first grid writes back: its rows of the hidden layer. -/
theorem flushed0 (c : Dev nD) (t : Fin cfg0.N) :
    (dat0 (V1 m ρ) c).flushed 5 t = ((cfg0.win 5).blk t).view.read (Elt Ideal) (hidden m c) := by
  show (cfg0.win 5).cut (grid0.coords t) ((dat0 (V1 m ρ) c).after 5 t) = _
  rw [after0_5]
  exact Layer1.writes_back (V1 m ρ) c t
    (val_main_v24 (F := Ideal) (m ((c : Thread nD τ).loc main_arg0)) (m ((c : Thread nD τ).loc main_arg7))) (m ((c : Thread nD τ).loc main_arg0)) (m ((c : Thread nD τ).loc main_arg1)) (m ((c : Thread nD τ).loc main_arg3)) (m ((c : Thread nD τ).loc main_arg2))
    (val_main_v25 (F := Ideal) (m ((c : Thread nD τ).loc main_arg1))) (val_main_v30 (F := Ideal) (m ((c : Thread nD τ).loc main_arg3)))
    (Host.V1_v25 m ρ c) (Host.V1_v26 m ρ c) (Host.V1_v28 m ρ c) (Host.V1_v30 m ρ c) (Host.V1_v31 m ρ c)
    (wl1T (m ((c : Thread nD τ).loc main_arg1))) (wr1T (m ((c : Thread nD τ).loc main_arg3))) (hidden m c)
    (fun r q => Cert.ReferenceIdeal.Entry.hidden_entry (m ((c : Thread nD τ).loc main_arg0)) (m ((c : Thread nD τ).loc main_arg1)) (m ((c : Thread nD τ).loc main_arg2)) (m ((c : Thread nD τ).loc main_arg3)) (m ((c : Thread nD τ).loc main_arg7)) r q)

/-- The output array after the first grid is the hidden layer. -/
theorem final0 (c : Dev nD) : (dat0 (V1 m ρ) c).arrAt 5 cfg0.N = hidden m c :=
  (dat0 (V1 m ρ) c).arrAt_eq_of_cover 5 (hidden m c) (fun t _ => flushed0 m ρ c t) Layer1.cover

/-- So that is what the host operations between the grids find there. -/
theorem W2_hidden (c : Dev nD) : (W2 m ρ c (Proc.devRef .tc main_v32) : FVec Ideal S50000x256 .f32) = hidden m c :=
  (W2_arr m ρ c 5).trans (final0 m ρ c)

/-! ## The second grid -/

/-- What point `t` of the second grid writes back: its rows of the result. -/
theorem flushed1 (c : Dev nD) (t : Fin cfg1.N) :
    (dat1 (V3 m ρ) c).flushed 5 t = ((cfg1.win 5).blk t).view.read (Elt Ideal) (output m c) := by
  show (cfg1.win 5).cut (grid1.coords t) ((dat1 (V3 m ρ) c).after 5 t) = _
  rw [after1_5]
  exact Layer2.writes_back (V3 m ρ) c t
    (val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg7))) (hidden m c) (m ((c : Thread nD τ).loc main_arg4)) (m ((c : Thread nD τ).loc main_arg6)) (m ((c : Thread nD τ).loc main_arg5))
    (val_main_v46 (F := Ideal) (m ((c : Thread nD τ).loc main_arg4))) (val_main_v51 (F := Ideal) (m ((c : Thread nD τ).loc main_arg6)))
    (Host.V3_v45 m ρ c (W2_hidden m ρ c)) (Host.V3_v46 m ρ c (W2_hidden m ρ c))
    (Host.V3_v48 m ρ c) (Host.V3_v50 m ρ c) (Host.V3_v51 m ρ c)
    (wl2T (m ((c : Thread nD τ).loc main_arg4))) (wr2T (m ((c : Thread nD τ).loc main_arg6))) (output m c)
    (fun r q => Cert.ReferenceIdeal.Entry.output_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r q)

/-- The output array after the second grid is the result. -/
theorem final1 (c : Dev nD) : (dat1 (V3 m ρ) c).arrAt 5 cfg1.N = output m c :=
  (dat1 (V3 m ρ) c).arrAt_eq_of_cover 5 (output m c) (fun t _ => flushed1 m ρ c t) Layer2.cover

/-- THE RESULT: at the last segment boundary the result array holds the reference's result. -/
theorem W4_output (c : Dev nD) : (W4 m ρ c (Proc.devRef .tc main_v52) : FVec Ideal S50000x128 .f32) = output m c :=
  (W4_arr m ρ c 5).trans (final1 m ρ c)

end Cert.KernelIdeal.Result

end
-- ==== Proof.lean ====
/-
  Two-layer GraphSAGE with mean aggregation: a Pallas kernel for each layer's dense combine against the plain jnp reference.

  Per layer both programs form, on the host and by the same operations, the degree-normalised sum `a` of every node's
  in-neighbours' rows. The kernel's program then computes `(a·Wlᵀ + x·Wrᵀ) + b` in 25 tiles of 2000 rows on the matrix
  unit (operands narrowed to bf16, which over the extended reals changes nothing), the reference `(a·Wlᵀ + b) + x·Wrᵀ`
  in one piece; the first layer ends in a maximum with zero on both sides. The two groupings of the three addends agree
  because addition of extended reals is commutative and associative, so no finiteness of the inputs is used.

  The kernel's run with its result named is the frame's launch read once more at the result array; its value there is
  the reference's own stage (`KernelValue`), and the reference's run is its generated run read stage by stage.
-/
import proofs.«160022_j84464826843467_1_alg».proof.Defs
import proofs.«160022_j84464826843467_1_alg».proof.Proof.Gen.Kernel
import proofs.«160022_j84464826843467_1_alg».proof.Proof.Gen.Kernel.Frame
import proofs.«160022_j84464826843467_1_alg».proof.Proof.Gen.KernelIdeal
import proofs.«160022_j84464826843467_1_alg».proof.Proof.Gen.KernelIdeal.Frame
import proofs.«160022_j84464826843467_1_alg».proof.Proof.Gen.ReferenceIdeal
import proofs.«160022_j84464826843467_1_alg».proof.Proof.Gen.Pre_finite_inputs
import proofs.«160022_j84464826843467_1_alg».proof.Proof.Gen.ReferenceIdeal.Run
import proofs.«160022_j84464826843467_1_alg».proof.Proof.Gen.ReferenceIdeal.Read
import proofs.«160022_j84464826843467_1_alg».proof.Proof.KernelRunNamed
import proofs.«160022_j84464826843467_1_alg».proof.Proof.KernelValue

noncomputable section

namespace Cert.Proof

open Idealize.ShloMosaic Idealize.SL.Sem

/-- The printed kernel program runs, nothing faulting, and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result arrays. -/
theorem algebraic : Cert.algebraic_KernelIdeal_ReferenceIdeal := by
  intro m ρ m' ρ' _ hagree
  refine ⟨fun c => Cert.KernelIdeal.Result.output m c, ?_, ?_⟩
  · exact (θ_run Cert.KernelIdeal.defs _ _).mono
      (fun r h c => ⟨(h c).1.trans (Cert.KernelIdeal.Result.W4_output m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq]
    obtain ⟨h0, h1, h2, h3, h4, h5, h6, h7⟩ := hagree c
    rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
